-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x64x128 : Shape := ⟨4, ![4096, 2, 64, 128]⟩
abbrev S4096 : Shape := ⟨1, ![4096]⟩
abbrev S2x128x128 : Shape := ⟨3, ![2, 128, 128]⟩
abbrev S2x128 : Shape := ⟨2, ![2, 128]⟩
abbrev S128x128 : Shape := ⟨2, ![128, 128]⟩
abbrev S128 : Shape := ⟨1, ![128]⟩
abbrev S_ : Shape := ⟨0, ![]⟩

class Facts : Prop where
  bcast_S_S4096x2x64x128 : S_.BroadcastsInDim S4096x2x64x128 (![] : Fin 0 → Fin S4096x2x64x128.rank)
  reducesTo_S4096x2x64x128_S_d0_1_2_3 : S4096x2x64x128.ReducesTo [0, 1, 2, 3] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S4096x2x64x128 .f32) (main_arg1 : IVec S4096 32) (main_arg2 : FVec F S2x128x128 .f32) (main_arg3 : FVec F S2x128 .f32) (main_arg4 : FVec F S128x128 .f32) (main_arg5 : FVec F S128 .f32) : IVec S_ 1 :=
  let main_v0 : FVec F S4096x2x64x128 .f32 := Host.absf main_arg0
  let main_cst : FVec F S_ .f32 := constant S_ .f32 0x7F800000#32
  let main_v1 : FVec F S4096x2x64x128 .f32 := broadcastInDim S4096x2x64x128 ![] bcast_S_S4096x2x64x128 main_cst
  let main_v2 : IVec S4096x2x64x128 1 := cmpf .olt main_v0 main_v1
  let main_c : IVec S_ 1 := constantI S_ 1 1#1
  let main_v3 : IVec S_ 1 := (fun x v => Host.reduce IntOp.andi x v reducesTo_S4096x2x64x128_S_d0_1_2_3 h_S_) main_v2 main_c
  let main_v4 : FVec F S2x128x128 .f32 := Host.absf main_arg2
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S4096x2x64x128 : Shape := ⟨4, ![4096, 2, 64, 128]⟩
abbrev S4096 : Shape := ⟨1, ![4096]⟩
abbrev S2x128x128 : Shape := ⟨3, ![2, 128, 128]⟩
abbrev S2x128 : Shape := ⟨2, ![2, 128]⟩
abbrev S128x128 : Shape := ⟨2, ![128, 128]⟩
abbrev S128 : Shape := ⟨1, ![128]⟩
abbrev S_ : Shape := ⟨0, ![]⟩
abbrev S1x128 : Shape := ⟨2, ![1, 128]⟩
abbrev S4096x1x1 : Shape := ⟨3, ![4096, 1, 1]⟩
abbrev S4096x64x64 : Shape := ⟨3, ![4096, 64, 64]⟩
abbrev S64x2x64x128 : Shape := ⟨4, ![64, 2, 64, 128]⟩
abbrev S64x1x1 : Shape := ⟨3, ![64, 1, 1]⟩
abbrev S64x64x64 : Shape := ⟨3, ![64, 64, 64]⟩
abbrev S64x1x64x128 : Shape := ⟨4, ![64, 1, 64, 128]⟩
abbrev S64x64x128 : Shape := ⟨3, ![64, 64, 128]⟩
abbrev S4096x128 : Shape := ⟨2, ![4096, 128]⟩

abbrev nBuf : Space → Nat
  | .hbm => 17
  | .vmem => 10
  | .smem => 0
  | _ => 0

abbrev bufTy : (tb : Table) → Fin (tcTables nBuf tb) → BufTy
  | .hbm, ⟨0, _⟩ => ⟨S4096x2x64x128, .f32⟩
  | .hbm, ⟨1, _⟩ => ⟨S4096, .i32⟩
  | .hbm, ⟨2, _⟩ => ⟨S2x128x128, .f32⟩
  | .hbm, ⟨3, _⟩ => ⟨S2x128, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S128x128, .f32⟩
  | .hbm, ⟨8, _⟩ => ⟨S128x128, .bf16⟩
  | .hbm, ⟨9, _⟩ => ⟨S128x128, .bf16⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S1x128, .f32⟩
  | .hbm, ⟨14, _⟩ => ⟨S4096, .f32⟩
  | .hbm, ⟨15, _⟩ => ⟨S4096x1x1, .f32⟩
  | .hbm, ⟨16, _⟩ => ⟨S4096x64x64, .f32⟩
  | .local _ .vmem, ⟨0, _⟩ => ⟨S64x2x64x128, .f32⟩
  | .local _ .vmem, ⟨1, _⟩ => ⟨S64x2x64x128, .f32⟩
  | .local _ .vmem, ⟨2, _⟩ => ⟨S64x1x1, .f32⟩
  | .local _ .vmem, ⟨3, _⟩ => ⟨S64x1x1, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S1x128, .f32⟩
  | .local _ .vmem, ⟨8, _⟩ => ⟨S64x64x64, .f32⟩
  | .local _ .vmem, ⟨9, _⟩ => ⟨S64x64x64, .f32⟩
  | _, _ => ⟨S4096x2x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x2x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S2x128x128_S128x128_d0 : S2x128x128.ReducesTo [0] S128x128
  h_S_ : 0 < S_.numel
  bitsLt_bf16_f32 : FTy.bits .bf16 < FTy.bits .f32
  reducesTo_S2x128_S128_d0 : S2x128.ReducesTo [0] S128
  shapeCasts_S128_S1x128 : S128.ShapeCasts S1x128
  shapeCasts_S4096_S4096x1x1 : S4096.ShapeCasts S4096x1x1
  inb_S64x1x1_S64x1x1_0_0_0 : ∀ a, (![0, 0, 0] : Fin 3 → Nat) a + S64x1x1.size a ≤ S64x1x1.size a
  h_S64x1x1 : 0 < S64x1x1.numel
  shapeCasts_S64x1x1_S64x1x1 : S64x1x1.ShapeCasts S64x1x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S64x2x64x128_S64x2x64x128_0_0_0_0 : ∀ a, (![0, 0, 0, 0] : Fin 4 → Nat) a + S64x2x64x128.size a ≤ S64x2x64x128.size a
  h_S64x2x64x128 : 0 < S64x2x64x128.numel
  slices_S64x2x64x128_o0_0_0_0_S64x1x64x128 : S64x2x64x128.Slices ![0, 0, 0, 0] S64x1x64x128
  shapeCasts_S64x1x64x128_S64x64x128 : S64x1x64x128.ShapeCasts S64x64x128
  shapeCasts_S64x64x128_S4096x128 : S64x64x128.ShapeCasts S4096x128
  broadcasts_S1x128_S4096x128 : S1x128.Broadcasts S4096x128
  shapeCasts_S4096x128_S64x64x128 : S4096x128.ShapeCasts S64x64x128
  broadcasts_S64x1x1_S64x64x128 : S64x1x1.Broadcasts S64x64x128
  slices_S64x2x64x128_o0_1_0_0_S64x1x64x128 : S64x2x64x128.Slices ![0, 1, 0, 0] S64x1x64x128
  inb_S64x64x64_S64x64x64_0_0_0 : ∀ a, (![0, 0, 0] : Fin 3 → Nat) a + S64x64x64.size a ≤ S64x64x64.size a
  h_S64x64x64 : 0 < S64x64x64.numel
  dot_S4096x128_S128x128_S4096x128_1_0_0_1_n_n_wf : DotDims.WF S4096x128 S128x128 S4096x128 [1] [0] [0] [1] [] []
  dot_S64x64x128_S64x64x128_S64x64x64_2_2_1_1_0_0_wf : DotDims.WF S64x64x128 S64x64x128 S64x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2x64x128.size a ≤ S4096x2x64x128.size a
  hwx0_0 : ∀ i : grid0.Coords, EltTy.bits .f32 = 32 ∨ (Rect.block (s := S4096x2x64x128) S64x2x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1x1.size a ≤ S4096x1x1.size a
  hwx0_1 : ∀ i : grid0.Coords, EltTy.bits .f32 = 32 ∨ (Rect.block (s := S4096x1x1) S64x1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x64x64.size a ≤ S4096x64x64.size a
  hwx0_6 : ∀ i : grid0.Coords, EltTy.bits .f32 = 32 ∨ (Rect.block (s := S4096x64x64) S64x64x64.size (cc0_transform_6 i) (hinb0_6 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S64x64x128_S64x64x128_S64x64x64_2_2_1_1_0_0 : DotDims S64x64x128 S64x64x128 S64x64x64 where
  lhsContracting := [2]
  rhsContracting := [2]
  lhsNonContracting := [1]
  rhsNonContracting := [1]
  lhsBatch := [0]
  rhsBatch := [0]
  wf := dot_S64x64x128_S64x64x128_S64x64x64_2_2_1_1_0_0_wf

abbrev win0_0 : Pipeline.Window sig grid0 :=
  Pipeline.Window.ofSpec (Memref.whole main_arg0) S64x2x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S64x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S64x64x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x2x64x128 : Shape := ⟨4, ![4096, 2, 64, 128]⟩
abbrev S4096 : Shape := ⟨1, ![4096]⟩
abbrev S2x128x128 : Shape := ⟨3, ![2, 128, 128]⟩
abbrev S2x128 : Shape := ⟨2, ![2, 128]⟩
abbrev S128x128 : Shape := ⟨2, ![128, 128]⟩
abbrev S128 : Shape := ⟨1, ![128]⟩
abbrev S_ : Shape := ⟨0, ![]⟩
abbrev S1x1x1x128 : Shape := ⟨4, ![1, 1, 1, 128]⟩
abbrev S4096x1x1x1 : Shape := ⟨4, ![4096, 1, 1, 1]⟩
abbrev S4096x1x64x128 : Shape := ⟨4, ![4096, 1, 64, 128]⟩
abbrev S4096x64x128 : Shape := ⟨3, ![4096, 64, 128]⟩
abbrev S4096x64x64 : Shape := ⟨3, ![4096, 64, 64]⟩

abbrev nBuf : Space → Nat
  | .hbm => 31
  | .vmem => 0
  | .smem => 0
  | _ => 0

abbrev bufTy : (tb : Table) → Fin (tcTables nBuf tb) → BufTy
  | .hbm, ⟨0, _⟩ => ⟨S4096x2x64x128, .f32⟩
  | .hbm, ⟨1, _⟩ => ⟨S4096, .i32⟩
  | .hbm, ⟨2, _⟩ => ⟨S2x128x128, .f32⟩
  | .hbm, ⟨3, _⟩ => ⟨S2x128, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S128x128, .f32⟩
  | .hbm, ⟨8, _⟩ => ⟨S_, .f32⟩
  | .hbm, ⟨9, _⟩ => ⟨S128, .f32⟩
  | .hbm, ⟨10, _⟩ => ⟨S4096x2x64x128, .f32⟩
  | .hbm, ⟨11, _⟩ => ⟨S1x1x1x128, .f32⟩
  | .hbm, ⟨12, _⟩ => ⟨S4096x2x64x128, .f32⟩
  | .hbm, ⟨13, _⟩ => ⟨S4096x2x64x128, .f32⟩
  | .hbm, ⟨14, _⟩ => ⟨S4096x2x64x128, .f32⟩
  | .hbm, ⟨15, _⟩ => ⟨S1x1x1x128, .f32⟩
  | .hbm, ⟨16, _⟩ => ⟨S4096x2x64x128, .f32⟩
  | .hbm, ⟨17, _⟩ => ⟨S4096x2x64x128, .f32⟩
  | .hbm, ⟨18, _⟩ => ⟨S4096, .f32⟩
  | .hbm, ⟨19, _⟩ => ⟨S4096x1x1x1, .f32⟩
  | .hbm, ⟨20, _⟩ => ⟨S4096x2x64x128, .f32⟩
  | .hbm, ⟨21, _⟩ => ⟨S4096x2x64x128, .f32⟩
  | .hbm, ⟨22, _⟩ => ⟨S4096x2x64x128, .f32⟩
  | .hbm, ⟨23, _⟩ => ⟨S_, .f32⟩
  | .hbm, ⟨24, _⟩ => ⟨S4096x2x64x128, .f32⟩
  | .hbm, ⟨25, _⟩ => ⟨S4096x2x64x128, .f32⟩
  | .hbm, ⟨26, _⟩ => ⟨S4096x1x64x128, .f32⟩
  | .hbm, ⟨27, _⟩ => ⟨S4096x64x128, .f32⟩
  | .hbm, ⟨28, _⟩ => ⟨S4096x1x64x128, .f32⟩
  | .hbm, ⟨29, _⟩ => ⟨S4096x64x128, .f32⟩
  | .hbm, ⟨30, _⟩ => ⟨S4096x64x64, .f32⟩
  | _, _ => ⟨S4096x2x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S2x128x128_S128x128_d0 : S2x128x128.ReducesTo [0] S128x128
  h_S_ : 0 < S_.numel
  reducesTo_S2x128_S128_d0 : S2x128.ReducesTo [0] S128
  bcast_S128_S1x1x1x128_3 : S128.BroadcastsInDim S1x1x1x128 (![3] : Fin 1 → Fin S1x1x1x128.rank)
  bcast_S1x1x1x128_S4096x2x64x128_0_1_2_3 : S1x1x1x128.BroadcastsInDim S4096x2x64x128 (![0, 1, 2, 3] : Fin 4 → Fin S4096x2x64x128.rank)
  bcast_S4096_S4096x1x1x1_0 : S4096.BroadcastsInDim S4096x1x1x1 (![0] : Fin 1 → Fin S4096x1x1x1.rank)
  bcast_S4096x1x1x1_S4096x2x64x128_0_1_2_3 : S4096x1x1x1.BroadcastsInDim S4096x2x64x128 (![0, 1, 2, 3] : Fin 4 → Fin S4096x2x64x128.rank)
  bcast_S_S4096x2x64x128 : S_.BroadcastsInDim S4096x2x64x128 (![] : Fin 0 → Fin S4096x2x64x128.rank)
  slices_S4096x2x64x128_S4096x1x64x128_0_0_0_0 : S4096x2x64x128.Slices ![0, 0, 0, 0] S4096x1x64x128
  shapeCasts_S4096x1x64x128_S4096x64x128 : S4096x1x64x128.ShapeCasts S4096x64x128
  slices_S4096x2x64x128_S4096x1x64x128_0_1_0_0 : S4096x2x64x128.Slices ![0, 1, 0, 0] S4096x1x64x128
  dot_S4096x2x64x128_S128x128_S4096x2x64x128_3_0_012_1_n_n_wf : DotDims.WF S4096x2x64x128 S128x128 S4096x2x64x128 [3] [0] [0, 1, 2] [1] [] []
  dot_S4096x64x128_S4096x64x128_S4096x64x64_2_2_1_1_0_0_wf : DotDims.WF S4096x64x128 S4096x64x128 S4096x64x64 [2] [2] [1] [1] [0] [0]

variable [Facts₀]

def dot_S4096x2x64x128_S128x128_S4096x2x64x128_3_0_012_1_n_n : DotDims S4096x2x64x128 S128x128 S4096x2x64x128 where
  lhsContracting := [3]
  rhsContracting := [0]
  lhsNonContracting := [0, 1, 2]
  rhsNonContracting := [1]
  lhsBatch := []
  rhsBatch := []
  wf := dot_S4096x2x64x128_S128x128_S4096x2x64x128_3_0_012_1_n_n_wf
def dot_S4096x64x128_S4096x64x128_S4096x64x64_2_2_1_1_0_0 : DotDims S4096x64x128 S4096x64x128 S4096x64x64 where
  lhsContracting := [2]
  rhsContracting := [2]
  lhsNonContracting := [1]
  rhsNonContracting := [1]
  lhsBatch := [0]
  rhsBatch := [0]
  wf := dot_S4096x64x128_S4096x64x128_S4096x64x64_2_2_1_1_0_0_wf

class Facts : Prop extends Facts₀ where

variable [Facts]
-- ==== Proof.Spec.lean ====
/-
  The function both programs compute, one sample at a time.

  A sample is a pair of feature matrices `x p : 64 × 128` (p = 0, 1) with a degree `g`. Each half is sent
  through two affine maps that share the input — the relation map `x ↦ x · Ws + bs`, scaled by the degree,
  and the self map `x ↦ x · W0 + b0` — added, and clipped below at zero:

      hidden p r o = max (g · (Σ_d x p r d · Ws d o + bs o) + (Σ_d x p r d · W0 d o + b0 o)) 0 .

  The result pairs row `r` of the first half with row `k` of the second:

      score r k = Σ_o hidden 0 r o · hidden 1 k o .

  Nothing here is particular to a program: the coordinates are literal `Fin` types and the values are
  extended reals, so the same term can stand on both sides of the equivalence. No algebraic law is
  needed between the two programs (they build this very expression, in different layouts), hence no
  finiteness assumption either.
-/
import Idealize.ShloMosaic.PureOps.Ideal
import Idealize.ShloMosaic.Lib.ValueIdx

noncomputable section

open scoped BigOperators

namespace Cert.PairScore

open Idealize.ShloMosaic Idealize.ShloMosaic.ValueIdx

/-- One entry of a half's hidden layer: the degree-scaled relation map plus the self map, clipped at zero. -/
def hidden (x : Fin 2 → Fin 64 → Fin 128 → EReal) (g : EReal) (Ws W0 : Fin 128 → Fin 128 → EReal)
    (bs b0 : Fin 128 → EReal) (p : Fin 2) (r : Fin 64) (o : Fin 128) : EReal :=
  max (g * ((∑ d : Fin 128, x p r d * Ws d o) + bs o) + ((∑ d : Fin 128, x p r d * W0 d o) + b0 o)) 0

/-- One sample's result: row `r` of the first half's hidden layer against row `k` of the second's. -/
def score (x : Fin 2 → Fin 64 → Fin 128 → EReal) (g : EReal) (Ws W0 : Fin 128 → Fin 128 → EReal)
    (bs b0 : Fin 128 → EReal) (r k : Fin 64) : EReal :=
  ∑ o : Fin 128, hidden x g Ws W0 bs b0 0 r o * hidden x g Ws W0 bs b0 1 k o

/-- The whole result array: sample `n`'s score matrix at `(n, r, k)`. -/
def result (x : Fin 4096 → Fin 2 → Fin 64 → Fin 128 → EReal) (g : Fin 4096 → EReal)
    (Ws W0 : Fin 128 → Fin 128 → EReal) (bs b0 : Fin 128 → EReal) :
    (⟨3, ![4096, 64, 64]⟩ : Shape).Idx → EReal :=
  fun j => score (x (j 0)) (g (j 0)) Ws W0 bs b0 (j 1) (j 2)

theorem result_apply (x : Fin 4096 → Fin 2 → Fin 64 → Fin 128 → EReal) (g : Fin 4096 → EReal)
    (Ws W0 : Fin 128 → Fin 128 → EReal) (bs b0 : Fin 128 → EReal) (n : Fin 4096) (r k : Fin 64) :
    result x g Ws W0 bs b0 (ix3 n r k) = score (x n) (g n) Ws W0 bs b0 r k := rfl

end Cert.PairScore

end
-- ==== Proof.KernelBlock.lean ====
/-
  What the kernel's body stores for ONE grid point, read at an index.

  A point holds 64 samples. The body flattens each half of the block to a [64·64, 128] matrix (row 64a + r is
  row r of sample a), multiplies it by the two weight matrices, adds the two bias rows, reshapes back to
  [64, 64, 128], scales the relation part by the sample's degree (a [64, 1, 1] column broadcast over the rows
  and lanes), adds the self part and clips at zero; the two halves' hidden layers are then contracted over the
  lane axis, sample by sample (one batched product). Read at entry (a, r, k) of the stored [64, 64, 64] block
  this is sample a's `score r k` of the specification, over the block's own entries. Format changes between
  f32 and bf16 are the identity on extended reals, so they leave no trace.
-/
import proofs.«120971_j9929964389089_1_alg».proof.Proof.Gen.KernelIdeal.Skeleton
import proofs.«120971_j9929964389089_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.PairScore

/-! ## The flat product [4096, 128] × [128, 128]: its operand indices, axis by axis -/

theorem flat_lhs_row (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem flat_lhs_col (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem flat_rhs_row (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem flat_rhs_col (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The flat product into a zero accumulator, at row `q` and column `o`: the sum over the shared axis. -/
theorem flat_matmul_apply (l : FVec Ideal S4096x128 .bf16) (w : FVec Ideal S128x128 .bf16) (q : Fin 4096) (o : Fin 128) :
    matmul dot_S4096x128_S128x128_S4096x128_1_0_0_1_n_n none l w (constant (F := Ideal) S4096x128 .f32 0x00000000#32) (ix2 q o)
      = ∑ d : Fin 128, l (ix2 q d) * w (ix2 d o) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 q o) ((contrEquiv1 dot_S4096x128_S128x128_S4096x128_1_0_0_1_n_n 128 rfl rfl).symm k) = ix2 q k := funext fun a => Fin.ext (by
    match a with
    | ⟨0, _⟩ => exact flat_lhs_row _ _
    | ⟨1, _⟩ => exact (flat_lhs_col _ _).trans hk)
  have er : dot_S4096x128_S128x128_S4096x128_1_0_0_1_n_n.rhsIdx (ix2 q o) ((contrEquiv1 dot_S4096x128_S128x128_S4096x128_1_0_0_1_n_n 128 rfl rfl).symm k) = ix2 k o := funext fun a => Fin.ext (by
    match a with
    | ⟨0, _⟩ => exact (flat_rhs_row _ _).trans hk
    | ⟨1, _⟩ => exact flat_rhs_col _ _)
  rw [el, er]

/-! ## The batched product [64, 64, 128] × [64, 64, 128] → [64, 64, 64]: sample by sample, lanes contracted -/

theorem pair_lhs_batch (i : S64x64x64.Idx) (q : dot_S64x64x128_S64x64x128_S64x64x64_2_2_1_1_0_0.contr.Idx) :
    (dot_S64x64x128_S64x64x128_S64x64x64_2_2_1_1_0_0.lhsIdx i q 0).val = (i 0).val := by
  unfold DotDims.lhsIdx
  rw [dif_pos (show (0 : Fin S64x64x128.rank) ∈ dot_S64x64x128_S64x64x128_S64x64x64_2_2_1_1_0_0.lhsBatch by decide)]
  rfl
theorem pair_lhs_row (i : S64x64x64.Idx) (q : dot_S64x64x128_S64x64x128_S64x64x64_2_2_1_1_0_0.contr.Idx) :
    (dot_S64x64x128_S64x64x128_S64x64x64_2_2_1_1_0_0.lhsIdx i q 1).val = (i 1).val := by
  unfold DotDims.lhsIdx
  rw [dif_neg (show ¬(1 : Fin S64x64x128.rank) ∈ dot_S64x64x128_S64x64x128_S64x64x64_2_2_1_1_0_0.lhsBatch by decide), dif_pos (show (1 : Fin S64x64x128.rank) ∈ dot_S64x64x128_S64x64x128_S64x64x64_2_2_1_1_0_0.lhsNonContracting by decide)]
  rfl
theorem pair_lhs_lane (i : S64x64x64.Idx) (q : dot_S64x64x128_S64x64x128_S64x64x64_2_2_1_1_0_0.contr.Idx) :
    (dot_S64x64x128_S64x64x128_S64x64x64_2_2_1_1_0_0.lhsIdx i q 2).val = (q ⟨0, by decide⟩).val :=
  dot_S64x64x128_S64x64x128_S64x64x64_2_2_1_1_0_0.lhsIdx_val_of_single rfl i q
theorem pair_rhs_batch (i : S64x64x64.Idx) (q : dot_S64x64x128_S64x64x128_S64x64x64_2_2_1_1_0_0.contr.Idx) :
    (dot_S64x64x128_S64x64x128_S64x64x64_2_2_1_1_0_0.rhsIdx i q 0).val = (i 0).val := by
  unfold DotDims.rhsIdx
  rw [dif_pos (show (0 : Fin S64x64x128.rank) ∈ dot_S64x64x128_S64x64x128_S64x64x64_2_2_1_1_0_0.rhsBatch by decide)]
  rfl
theorem pair_rhs_row (i : S64x64x64.Idx) (q : dot_S64x64x128_S64x64x128_S64x64x64_2_2_1_1_0_0.contr.Idx) :
    (dot_S64x64x128_S64x64x128_S64x64x64_2_2_1_1_0_0.rhsIdx i q 1).val = (i 2).val := by
  unfold DotDims.rhsIdx
  rw [dif_neg (show ¬(1 : Fin S64x64x128.rank) ∈ dot_S64x64x128_S64x64x128_S64x64x64_2_2_1_1_0_0.rhsBatch by decide), dif_pos (show (1 : Fin S64x64x128.rank) ∈ dot_S64x64x128_S64x64x128_S64x64x64_2_2_1_1_0_0.rhsNonContracting by decide)]
  rfl
theorem pair_rhs_lane (i : S64x64x64.Idx) (q : dot_S64x64x128_S64x64x128_S64x64x64_2_2_1_1_0_0.contr.Idx) :
    (dot_S64x64x128_S64x64x128_S64x64x64_2_2_1_1_0_0.rhsIdx i q 2).val = (q ⟨0, by decide⟩).val :=
  dot_S64x64x128_S64x64x128_S64x64x64_2_2_1_1_0_0.rhsIdx_val_of_single rfl i q

/-- The batched product into a zero accumulator at (a, r, k): row `r` of the left operand's sample `a`
    against row `k` of the right operand's sample `a`. -/
theorem pair_matmul_apply (l w : FVec Ideal S64x64x128 .bf16) (a r k : Fin 64) :
    matmul dot_S64x64x128_S64x64x128_S64x64x64_2_2_1_1_0_0 none l w (constant (F := Ideal) S64x64x64 .f32 0x00000000#32) (ix3 a r k)
      = ∑ o : Fin 128, l (ix3 a r o) * w (ix3 a k o) := by
  simp only [matmul]
  rw [Ideal.matmul_constant_zero_apply, ← Equiv.sum_comp (contrEquiv1 dot_S64x64x128_S64x64x128_S64x64x64_2_2_1_1_0_0 128 rfl rfl).symm]
  refine Finset.sum_congr rfl fun o _ => ?_
  have ho := contrEquiv1_symm_val dot_S64x64x128_S64x64x128_S64x64x64_2_2_1_1_0_0 128 rfl rfl o
  have el : dot_S64x64x128_S64x64x128_S64x64x64_2_2_1_1_0_0.lhsIdx (ix3 a r k) ((contrEquiv1 dot_S64x64x128_S64x64x128_S64x64x64_2_2_1_1_0_0 128 rfl rfl).symm o) = ix3 a r o := funext fun b => Fin.ext (by
    match b with
    | ⟨0, _⟩ => exact pair_lhs_batch _ _
    | ⟨1, _⟩ => exact pair_lhs_row _ _
    | ⟨2, _⟩ => exact (pair_lhs_lane _ _).trans ho)
  have er : dot_S64x64x128_S64x64x128_S64x64x64_2_2_1_1_0_0.rhsIdx (ix3 a r k) ((contrEquiv1 dot_S64x64x128_S64x64x128_S64x64x64_2_2_1_1_0_0 128 rfl rfl).symm o) = ix3 a k o := funext fun b => Fin.ext (by
    match b with
    | ⟨0, _⟩ => exact pair_rhs_batch _ _
    | ⟨1, _⟩ => exact pair_rhs_row _ _
    | ⟨2, _⟩ => exact (pair_rhs_lane _ _).trans ho)
  rw [el, er]

/-! ## The layout steps -/

/-- Row 64a + r of a half's flattened matrix is row `r` of sample `a` of that half (`p`) of the block. -/
theorem flat_half_apply (x : FVec Ideal S64x2x64x128 .f32) (o4 : Nat) (hs : S64x2x64x128.Slices ![0, o4, 0, 0] S64x1x64x128)
    (p : Fin 2) (hp : p.val = o4) (a r : Fin 64) (d : Fin 128) (q : Fin 4096) (hq : q.val = a.val * 64 + r.val) :
    (shapeCast S4096x128 (truncf .bf16 (shapeCast S64x64x128 (extractStridedSlice S64x1x64x128 ![0, o4, 0, 0] x hs)
        shapeCasts_S64x1x64x128_S64x64x128) bitsLt_bf16_f32) shapeCasts_S64x64x128_S4096x128 : FVec Ideal S4096x128 .bf16) (ix2 q d)
      = x (ix4 a p r d) := by
  refine (shapeCast_apply _ shapeCasts_S64x64x128_S4096x128 (ix2 q d) (ix3 a r d) ?_).trans ?_
  · rw [Shape.rowMajor_val_three, Shape.rowMajor_val_two]
    show (a.val * 64 + r.val) * 128 + d.val = q.val * 128 + d.val
    rw [hq]
  refine (truncf_apply (ψ := .bf16) (φ := .f32) _ bitsLt_bf16_f32 _).trans ?_
  refine (shapeCast_apply _ shapeCasts_S64x1x64x128_S64x64x128 (ix3 a r d) (ix4 a (0 : Fin 1) r d) ?_).trans ?_
  · rw [Shape.rowMajor_val_four, Shape.rowMajor_val_three]
    show ((a.val * 1 + 0) * 64 + r.val) * 128 + d.val = (a.val * 64 + r.val) * 128 + d.val
    omega
  exact slice4_axis1_apply o4 x hs a (0 : Fin 1) r d p (by rw [hp]; rfl)

/-- A bias row broadcast down the flattened matrix reads its lane's entry. -/
theorem bias_rows_apply (b : FVec Ideal S1x128 .f32) (q : Fin 4096) (o : Fin 128) :
    broadcastTo S4096x128 b broadcasts_S1x128_S4096x128 (ix2 q o) = b (ix2 (0 : Fin 1) o) :=
  broadcastTo_apply b broadcasts_S1x128_S4096x128 (ix2 q o) (ix2 (0 : Fin 1) o) (fun ax => match ax with
    | ⟨0, _⟩ => by show 0 = if (1 : Nat) = 1 then 0 else _; rw [if_pos rfl]
    | ⟨1, _⟩ => by show o.val = if (128 : Nat) = 1 then 0 else o.val; rw [if_neg (by decide)])

/-- The degree column broadcast over rows and lanes reads its sample's entry. -/
theorem degree_apply (g : FVec Ideal S64x1x1 .f32) (a r : Fin 64) (o : Fin 128) :
    broadcastTo S64x64x128 g broadcasts_S64x1x1_S64x64x128 (ix3 a r o) = g (ix3 a (0 : Fin 1) (0 : Fin 1)) :=
  broadcastTo_apply g broadcasts_S64x1x1_S64x64x128 (ix3 a r o) (ix3 a (0 : Fin 1) (0 : Fin 1)) (fun ax => match ax with
    | ⟨0, _⟩ => by show a.val = if (64 : Nat) = 1 then 0 else a.val; rw [if_neg (by decide)]
    | ⟨1, _⟩ => by show 0 = if (1 : Nat) = 1 then 0 else _; rw [if_pos rfl]
    | ⟨2, _⟩ => by show 0 = if (1 : Nat) = 1 then 0 else _; rw [if_pos rfl])

/-! ## One half's two affine maps, the clip, and the block's entry -/

/-- A half's affine image, reshaped back to [64, 64, 128], at sample `a`, row `r`, lane `o`:
    the row's product with the weight column plus the bias entry. -/
theorem affine_apply (x : FVec Ideal S64x2x64x128 .f32) (o4 : Nat) (hs : S64x2x64x128.Slices ![0, o4, 0, 0] S64x1x64x128)
    (p : Fin 2) (hp : p.val = o4) (w : FVec Ideal S128x128 .bf16) (b : FVec Ideal S1x128 .f32) (a r : Fin 64) (o : Fin 128) :
    shapeCast S64x64x128 (addf (matmul dot_S4096x128_S128x128_S4096x128_1_0_0_1_n_n none
        (shapeCast S4096x128 (truncf .bf16 (shapeCast S64x64x128 (extractStridedSlice S64x1x64x128 ![0, o4, 0, 0] x hs)
          shapeCasts_S64x1x64x128_S64x64x128) bitsLt_bf16_f32) shapeCasts_S64x64x128_S4096x128)
        w (constant (F := Ideal) S4096x128 .f32 0x00000000#32)) (broadcastTo S4096x128 b broadcasts_S1x128_S4096x128))
      shapeCasts_S4096x128_S64x64x128 (ix3 a r o)
      = (∑ d : Fin 128, x (ix4 a p r d) * w (ix2 d o)) + b (ix2 (0 : Fin 1) o) := by
  have hq : a.val * 64 + r.val < 4096 := by have := a.isLt; have := r.isLt; omega
  refine (shapeCast_apply _ shapeCasts_S4096x128_S64x64x128 (ix3 a r o) (ix2 (⟨a.val * 64 + r.val, hq⟩ : Fin 4096) o) ?_).trans ?_
  · rw [Shape.rowMajor_val_two, Shape.rowMajor_val_three]
    show (a.val * 64 + r.val) * 128 + o.val = (a.val * 64 + r.val) * 128 + o.val
    rfl
  refine (addf_apply _ _ _).trans ?_
  refine congrArg₂ (· + ·) ?_ (bias_rows_apply b _ o)
  refine (flat_matmul_apply _ w _ o).trans ?_
  exact Finset.sum_congr rfl fun d _ => congrArg (· * w (ix2 d o)) (flat_half_apply x o4 hs p hp a r d _ rfl)

/-- The degree-scaled sum of the two affine images, clipped at zero, at an entry. -/
theorem clip_apply (g : FVec Ideal S64x1x1 .f32) (u v : FVec Ideal S64x64x128 .f32) (a r : Fin 64) (o : Fin 128) :
    (truncf .bf16 (maximumf (addf (mulf (broadcastTo S64x64x128 g broadcasts_S64x1x1_S64x64x128) u) v)
        (broadcast S64x64x128 (Scalar.ofBits (F := Ideal) .f32 0x00000000#32))) bitsLt_bf16_f32 : FVec Ideal S64x64x128 .bf16) (ix3 a r o)
      = max (g (ix3 a (0 : Fin 1) (0 : Fin 1)) * u (ix3 a r o) + v (ix3 a r o)) 0 := by
  show max (broadcastTo S64x64x128 g broadcasts_S64x1x1_S64x64x128 (ix3 a r o) * u (ix3 a r o) + v (ix3 a r o)) (Ideal.ofBits .f32 0x00000000#32) = _
  rw [Ideal.ofBits_zero_f32, degree_apply]

section
variable (x0 : FVec Ideal S64x2x64x128 .f32) (x1 : FVec Ideal S64x1x1 .f32) (x2 x3 : FVec Ideal S128x128 .bf16)
  (x4 x5 : FVec Ideal S1x128 .f32)

/-- Sample `a` of the block as the specification's arguments: its two feature matrices, its degree, and the shared
    weights and biases. -/
abbrev sampleScore (a : Fin 64) (r k : Fin 64) : EReal :=
  score (fun p r d => x0 (ix4 a p r d)) (x1 (ix3 a (0 : Fin 1) (0 : Fin 1))) (fun d o => x2 (ix2 d o)) (fun d o => x3 (ix2 d o))
    (fun o => x4 (ix2 (0 : Fin 1) o)) (fun o => x5 (ix2 (0 : Fin 1) o)) r k

abbrev sampleHidden (a : Fin 64) (p : Fin 2) (r : Fin 64) (o : Fin 128) : EReal :=
  hidden (fun p r d => x0 (ix4 a p r d)) (x1 (ix3 a (0 : Fin 1) (0 : Fin 1))) (fun d o => x2 (ix2 d o)) (fun d o => x3 (ix2 d o))
    (fun o => x4 (ix2 (0 : Fin 1) o)) (fun o => x5 (ix2 (0 : Fin 1) o)) p r o

/-- The first half's hidden layer, as the body computes it. -/
theorem hidden_first (a r : Fin 64) (o : Fin 128) :
    k0_pay7 (F := Ideal) x1 x2 x3 x4 x5 x0 (ix3 a r o) = sampleHidden x0 x1 x2 x3 x4 x5 a 0 r o := by
  unfold k0_pay7 k0_pay2 k0_pay3 k0_pay4 k0_pay5 k0_pay6
  simp only [shapeCast_self]
  refine (clip_apply _ _ _ a r o).trans ?_
  unfold sampleHidden Cert.PairScore.hidden
  rw [affine_apply x0 0 _ 0 rfl, affine_apply x0 0 _ 0 rfl]

/-- The second half's hidden layer: the same expression over the block's second half. -/
theorem hidden_second (a k : Fin 64) (o : Fin 128) :
    (truncf .bf16 (maximumf (addf (mulf (broadcastTo S64x64x128 (k0_pay2 (F := Ideal) x1) broadcasts_S64x1x1_S64x64x128)
        (shapeCast S64x64x128 (k0_pay9 (F := Ideal) x2 x4 x0) shapeCasts_S4096x128_S64x64x128))
        (shapeCast S64x64x128 (k0_pay10 (F := Ideal) x3 x5 x0) shapeCasts_S4096x128_S64x64x128))
        (broadcast S64x64x128 (Scalar.ofBits (F := Ideal) .f32 0x00000000#32))) bitsLt_bf16_f32 : FVec Ideal S64x64x128 .bf16) (ix3 a k o)
      = sampleHidden x0 x1 x2 x3 x4 x5 a 1 k o := by
  unfold k0_pay9 k0_pay10 k0_pay8 k0_pay2 k0_pay3 k0_pay4 k0_pay5 k0_pay6
  simp only [shapeCast_self]
  refine (clip_apply _ _ _ a k o).trans ?_
  unfold sampleHidden Cert.PairScore.hidden
  rw [affine_apply x0 1 _ 1 rfl, affine_apply x0 1 _ 1 rfl]

/-- THE BLOCK'S ENTRY: what the body stores at (a, r, k) is sample `a`'s score at (r, k). -/
theorem stored_apply (a r k : Fin 64) :
    k0_pay1 (F := Ideal) (k0_pay2 x1) (k0_pay7 x1 x2 x3 x4 x5 x0) (k0_pay9 x2 x4 x0) (k0_pay10 x3 x5 x0) (ix3 a r k)
      = sampleScore x0 x1 x2 x3 x4 x5 a r k := by
  unfold k0_pay1
  refine (pair_matmul_apply _ _ a r k).trans ?_
  unfold sampleScore Cert.PairScore.score
  exact Finset.sum_congr rfl fun o _ =>
    congrArg₂ (· * ·) (hidden_first x0 x1 x2 x3 x4 x5 a r o) (hidden_second x0 x1 x2 x3 x4 x5 a k o)

end

end Cert.KernelIdeal.Block

end
-- ==== Proof.KernelValue.lean ====
/-
  The kernel's result array as ONE function of the argument arrays.

  The grid has 64 points; point t stages samples 64t … 64t + 63 of the features and of the degree column, the
  two weight matrices and the two bias rows whole, and writes back samples 64t … 64t + 63 of the result. Before
  the region the host has summed the relation weights and biases over the two relations, converted the degrees
  to floats and reshaped the degree vector to a column and the bias vectors to rows. Reading each staged block
  back through its window, the body's stored block (`Block.stored_apply`) is block t of the specification's
  `result` over the argument arrays; the 64 blocks tile the array, so after the run the array is `result`.
-/
import proofs.«120971_j9929964389089_1_alg».proof.Proof.Gen.KernelIdeal.Value
import proofs.«120971_j9929964389089_1_alg».proof.Proof.KernelBlock
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.PairScore
open Idealize.ShloMosaic.Pipeline (Dat)

variable (m : (ℓ : Loc nD τ sig) → Buf (Elt Ideal) ℓ) (ρ : Dev nD → PrngReg)

/-! ## The argument arrays, and what the host prefix makes of them -/

abbrev feat (c : Dev nD) : FVec Ideal S4096x2x64x128 .f32 := m ((c : Thread nD τ).loc main_arg0)
abbrev degs (c : Dev nD) : IVec S4096 32 := m ((c : Thread nD τ).loc main_arg1)
abbrev relW (c : Dev nD) : FVec Ideal S2x128x128 .f32 := m ((c : Thread nD τ).loc main_arg2)
abbrev relB (c : Dev nD) : FVec Ideal S2x128 .f32 := m ((c : Thread nD τ).loc main_arg3)
abbrev selfW (c : Dev nD) : FVec Ideal S128x128 .f32 := m ((c : Thread nD τ).loc main_arg4)
abbrev selfB (c : Dev nD) : FVec Ideal S128 .f32 := m ((c : Thread nD τ).loc main_arg5)

/-- The relation weights summed over the relations (a host reduction, kept whole: the reference applies the same one). -/
abbrev sumW (c : Dev nD) : FVec Ideal S128x128 .f32 :=
  Host.reduceAdd (relW m c) (constant (F := Ideal) S_ .f32 0x00000000#32) reducesTo_S2x128x128_S128x128_d0 h_S_
/-- The relation biases summed over the relations. -/
abbrev sumB (c : Dev nD) : FVec Ideal S128 .f32 :=
  Host.reduceAdd (relB m c) (constant (F := Ideal) S_ .f32 0x00000000#32) reducesTo_S2x128_S128_d0 h_S_

/-- THE RESULT: the specification's array over the arguments, coordinate by coordinate. -/
def whole (c : Dev nD) : S4096x64x64.Idx → EReal :=
  result (fun n p r d => feat m c (ix4 n p r d)) (fun n => FloatOps.sitofp (F := Ideal) .f32 (degs m c (ix1 n)))
    (fun d o => sumW m c (ix2 d o)) (fun d o => selfW m c (ix2 d o)) (fun o => sumB m c (ix1 o)) (fun o => selfB m c (ix1 o))

theorem V_degree (c : Dev nD) : (V m c main_v7 : S4096x1x1.Idx → EReal)
    = shapeCast S4096x1x1 (sitofp (F := Ideal) .f32 (degs m c)) shapeCasts_S4096_S4096x1x1 := by
  dsimp only [Gen.V, Gen.hostOps0]; after_results <;> rfl
theorem V_sumW (c : Dev nD) : (V m c main_v1 : S128x128.Idx → EReal) = truncf .bf16 (sumW m c) bitsLt_bf16_f32 := by
  dsimp only [Gen.V, Gen.hostOps0]; after_results <;> rfl
theorem V_selfW (c : Dev nD) : (V m c main_v2 : S128x128.Idx → EReal) = truncf .bf16 (selfW m c) bitsLt_bf16_f32 := by
  dsimp only [Gen.V, Gen.hostOps0]; after_results <;> rfl
theorem V_sumB (c : Dev nD) : (V m c main_v4 : S1x128.Idx → EReal) = shapeCast S1x128 (sumB m c) shapeCasts_S128_S1x128 := by
  dsimp only [Gen.V, Gen.hostOps0]; after_results <;> rfl
theorem V_selfB (c : Dev nD) : (V m c main_v5 : S1x128.Idx → EReal) = shapeCast S1x128 (selfB m c) shapeCasts_S128_S1x128 := by
  dsimp only [Gen.V, Gen.hostOps0]; after_results <;> rfl

/-! ## The staged blocks, by their literal types -/

abbrev featBlk (c : Dev nD) (t : Fin cfg0.N) : FVec Ideal S64x2x64x128 .f32 := iblk m c 0 t
abbrev degBlk (c : Dev nD) (t : Fin cfg0.N) : FVec Ideal S64x1x1 .f32 := iblk m c 1 t
abbrev sumWBlk (c : Dev nD) (t : Fin cfg0.N) : FVec Ideal S128x128 .bf16 := iblk m c 2 t
abbrev selfWBlk (c : Dev nD) (t : Fin cfg0.N) : FVec Ideal S128x128 .bf16 := iblk m c 3 t
abbrev sumBBlk (c : Dev nD) (t : Fin cfg0.N) : FVec Ideal S1x128 .f32 := iblk m c 4 t
abbrev selfBBlk (c : Dev nD) (t : Fin cfg0.N) : FVec Ideal S1x128 .f32 := iblk m c 5 t

/-- The printed index maps over the grid: the features, the degrees and the result move with the point along the
    sample axis; the weights and biases stay. -/
theorem index_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val ∧ win0_6.index t (1 : Fin 3) = 0 ∧ win0_6.index t (2 : Fin 3) = 0) :=
  (by decide +kernel : ∀ t : Fin grid0.N, _)

/-- Sample `a` of point t's feature block is sample 64t + a of the features. -/
theorem featBlk_apply (c : Dev nD) (t : Fin cfg0.N) (a : Fin 64) (p : Fin 2) (r : Fin 64) (d : Fin 128) (n : Fin 4096)
    (hn : n.val = t.val * 64 + a.val) : featBlk m c t (ix4 a p r d) = feat m c (ix4 n p r d) := by
  obtain ⟨⟨e0, e1, e2, e3⟩, -⟩ := index_facts t
  show V m c main_arg0 (((cfg0.win 0).blk t).view.emb (ix4 a p r d)) = _
  rw [V_main_arg0]
  refine congrArg (feat m c) (funext fun b => Fin.ext ?_)
  match b with
  | ⟨0, _⟩ => show win0_0.index t (0 : Fin 4) * 64 + 1 * a.val = n.val; rw [e0, hn]; omega
  | ⟨1, _⟩ => show win0_0.index t (1 : Fin 4) * 2 + 1 * p.val = p.val; rw [e1]; omega
  | ⟨2, _⟩ => show win0_0.index t (2 : Fin 4) * 64 + 1 * r.val = r.val; rw [e2]; omega
  | ⟨3, _⟩ => show win0_0.index t (3 : Fin 4) * 128 + 1 * d.val = d.val; rw [e3]; omega

/-- Entry `a` of point t's degree column is sample 64t + a's degree, as a float. -/
theorem degBlk_apply (c : Dev nD) (t : Fin cfg0.N) (a : Fin 64) (n : Fin 4096) (hn : n.val = t.val * 64 + a.val) :
    degBlk m c t (ix3 a (0 : Fin 1) (0 : Fin 1)) = FloatOps.sitofp (F := Ideal) .f32 (degs m c (ix1 n)) := by
  obtain ⟨-, ⟨e0, e1, e2⟩, -⟩ := index_facts t
  show (V m c main_v7 : S4096x1x1.Idx → EReal) (((cfg0.win 1).blk t).view.emb (ix3 a (0 : Fin 1) (0 : Fin 1))) = _
  rw [V_degree]
  refine (shapeCast_apply _ shapeCasts_S4096_S4096x1x1 _ (ix1 n) ?_).trans rfl
  rw [Shape.rowMajor_val_one, Shape.rowMajor_val_three]
  show n.val = ((win0_1.index t (0 : Fin 3) * 64 + 1 * a.val) * 1 + (win0_1.index t (1 : Fin 3) * 1 + 1 * 0)) * 1 + (win0_1.index t (2 : Fin 3) * 1 + 1 * 0)
  rw [e0, e1, e2, hn]; omega

/-- The summed relation weights are staged whole: the block is the array, and the format change is the identity. -/
theorem sumWBlk_apply (c : Dev nD) (t : Fin cfg0.N) (d o : Fin 128) : sumWBlk m c t (ix2 d o) = sumW m c (ix2 d o) := by
  obtain ⟨-, -, ⟨e0, e1⟩, -⟩ := index_facts t
  show (V m c main_v1 : S128x128.Idx → EReal) (((cfg0.win 2).blk t).view.emb (ix2 d o)) = _
  rw [V_sumW]
  refine (truncf_apply (ψ := .bf16) (φ := .f32) _ bitsLt_bf16_f32 _).trans ?_
  refine congrArg (sumW m c) (funext fun b => Fin.ext ?_)
  match b with
  | ⟨0, _⟩ => show win0_2.index t (0 : Fin 2) * 128 + 1 * d.val = d.val; rw [e0]; omega
  | ⟨1, _⟩ => show win0_2.index t (1 : Fin 2) * 128 + 1 * o.val = o.val; rw [e1]; omega

/-- The self weights likewise. -/
theorem selfWBlk_apply (c : Dev nD) (t : Fin cfg0.N) (d o : Fin 128) : selfWBlk m c t (ix2 d o) = selfW m c (ix2 d o) := by
  obtain ⟨-, -, -, ⟨e0, e1⟩, -⟩ := index_facts t
  show (V m c main_v2 : S128x128.Idx → EReal) (((cfg0.win 3).blk t).view.emb (ix2 d o)) = _
  rw [V_selfW]
  refine (truncf_apply (ψ := .bf16) (φ := .f32) _ bitsLt_bf16_f32 _).trans ?_
  refine congrArg (selfW m c) (funext fun b => Fin.ext ?_)
  match b with
  | ⟨0, _⟩ => show win0_3.index t (0 : Fin 2) * 128 + 1 * d.val = d.val; rw [e0]; omega
  | ⟨1, _⟩ => show win0_3.index t (1 : Fin 2) * 128 + 1 * o.val = o.val; rw [e1]; omega

/-- The summed relation biases, staged whole as a row. -/
theorem sumBBlk_apply (c : Dev nD) (t : Fin cfg0.N) (o : Fin 128) : sumBBlk m c t (ix2 (0 : Fin 1) o) = sumB m c (ix1 o) := by
  obtain ⟨-, -, -, -, ⟨e0, e1⟩, -⟩ := index_facts t
  show (V m c main_v4 : S1x128.Idx → EReal) (((cfg0.win 4).blk t).view.emb (ix2 (0 : Fin 1) o)) = _
  rw [V_sumB]
  refine (shapeCast_apply _ shapeCasts_S128_S1x128 _ (ix1 o) ?_).trans rfl
  rw [Shape.rowMajor_val_one, Shape.rowMajor_val_two]
  show o.val = (win0_4.index t (0 : Fin 2) * 1 + 1 * 0) * 128 + (win0_4.index t (1 : Fin 2) * 128 + 1 * o.val)
  rw [e0, e1]; omega

/-- The self biases likewise. -/
theorem selfBBlk_apply (c : Dev nD) (t : Fin cfg0.N) (o : Fin 128) : selfBBlk m c t (ix2 (0 : Fin 1) o) = selfB m c (ix1 o) := by
  obtain ⟨-, -, -, -, -, ⟨e0, e1⟩, -⟩ := index_facts t
  show (V m c main_v5 : S1x128.Idx → EReal) (((cfg0.win 5).blk t).view.emb (ix2 (0 : Fin 1) o)) = _
  rw [V_selfB]
  refine (shapeCast_apply _ shapeCasts_S128_S1x128 _ (ix1 o) ?_).trans rfl
  rw [Shape.rowMajor_val_one, Shape.rowMajor_val_two]
  show o.val = (win0_5.index t (0 : Fin 2) * 1 + 1 * 0) * 128 + (win0_5.index t (1 : Fin 2) * 128 + 1 * o.val)
  rw [e0, e1]; omega

/-- Entry (a, r, k) of point t's result block sits at (64t + a, r, k) of the result array. -/
theorem outBlk_emb (t : Fin cfg0.N) (a r k : Fin 64) (n : Fin 4096) (hn : n.val = t.val * 64 + a.val) :
    (((cfg0.win 6).blk t).view.emb (ix3 a r k) : S4096x64x64.Idx) = ix3 n r k := by
  obtain ⟨-, -, -, -, -, -, ⟨e0, e1, e2⟩⟩ := index_facts t
  refine funext fun b => Fin.ext ?_
  match b with
  | ⟨0, _⟩ => show win0_6.index t (0 : Fin 3) * 64 + 1 * a.val = n.val; rw [e0, hn]; omega
  | ⟨1, _⟩ => show win0_6.index t (1 : Fin 3) * 64 + 1 * r.val = r.val; rw [e1]; omega
  | ⟨2, _⟩ => show win0_6.index t (2 : Fin 3) * 64 + 1 * k.val = k.val; rw [e2]; omega

/-! ## What a point writes back, the cover, the array after the run -/

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- WHAT POINT t WRITES BACK is block t of `whole`. -/
theorem flushed_eq (c : Dev nD) (t : Fin cfg0.N) :
    (dats m 0 c).flushed 6 t = ((cfg0.win 6).blk t).view.read (Elt Ideal) (whole m c) := by
  rw [Cert.KernelIdeal.Value.flushed6]
  unfold out0_6
  rw [View.canon_unit_zero zero3]
  simp only [View.ld_unit_zero (S := S64x1x1) zero3, View.ld_unit_zero (S := S128x128) zero2,
    View.ld_unit_zero (S := S1x128) zero2, View.ld_unit_zero (S := S64x2x64x128) zero4]
  funext y
  obtain ⟨a, r, k, rfl⟩ : ∃ (a r k : Fin 64), y = ix3 a r k := ⟨y 0, y 1, y 2, eq_ix3 y⟩
  have hlt : t.val * 64 + a.val < 4096 := by have := t.isLt; have hN : cfg0.N = 64 := N_0; have := a.isLt; omega
  show k0_pay1 (F := Ideal) (k0_pay2 (degBlk m c t)) (k0_pay7 (degBlk m c t) (sumWBlk m c t) (selfWBlk m c t) (sumBBlk m c t) (selfBBlk m c t) (featBlk m c t))
      (k0_pay9 (sumWBlk m c t) (sumBBlk m c t) (featBlk m c t)) (k0_pay10 (selfWBlk m c t) (selfBBlk m c t) (featBlk m c t)) (ix3 a r k)
    = whole m c (((cfg0.win 6).blk t).view.emb (ix3 a r k))
  rw [outBlk_emb t a r k ⟨t.val * 64 + a.val, hlt⟩ rfl]
  refine (Block.stored_apply (featBlk m c t) (degBlk m c t) (sumWBlk m c t) (selfWBlk m c t) (sumBBlk m c t) (selfBBlk m c t) a r k).trans ?_
  unfold whole
  rw [result_apply]
  have e0 : (fun (p : Fin 2) (r : Fin 64) (d : Fin 128) => featBlk m c t (ix4 a p r d))
      = fun p r d => feat m c (ix4 (⟨t.val * 64 + a.val, hlt⟩ : Fin 4096) p r d) :=
    funext fun p => funext fun r => funext fun d => featBlk_apply m c t a p r d _ rfl
  have e1 := degBlk_apply m c t a ⟨t.val * 64 + a.val, hlt⟩ rfl
  have e2 : (fun (d o : Fin 128) => sumWBlk m c t (ix2 d o)) = fun d o => sumW m c (ix2 d o) :=
    funext fun d => funext fun o => sumWBlk_apply m c t d o
  have e3 : (fun (d o : Fin 128) => selfWBlk m c t (ix2 d o)) = fun d o => selfW m c (ix2 d o) :=
    funext fun d => funext fun o => selfWBlk_apply m c t d o
  have e4 : (fun (o : Fin 128) => sumBBlk m c t (ix2 (0 : Fin 1) o)) = fun o => sumB m c (ix1 o) :=
    funext fun o => sumBBlk_apply m c t o
  have e5 : (fun (o : Fin 128) => selfBBlk m c t (ix2 (0 : Fin 1) o)) = fun o => selfB m c (ix1 o) :=
    funext fun o => selfBBlk_apply m c t o
  unfold Block.sampleScore
  rw [e0, e1, e2, e3, e4, e5]

/-- An index of the result array is in point t's block iff each coordinate is in the block's range. -/
theorem mem_block (t : Fin cfg0.N) (i : S4096x64x64.Idx) :
    i ∈ ((cfg0.win 6).blk t).view.set ↔ ∀ b : Fin 3, win0_6.index t b * S64x64x64.size b ≤ (i b).val ∧ (i b).val < win0_6.index t b * S64x64x64.size b + S64x64x64.size b := by
  show i ∈ ((View.whole main_v8).slice (win0_6.rect t)).set ↔ _
  rw [View.set_slice_whole, Rect.mem_set_unit]
  exact Iff.rfl

/-- Every index of the result array is in the block of the point that holds its sample. -/
theorem covered (i : S4096x64x64.Idx) : ∃ t : Fin cfg0.N, (cfg0.win 6).flush t = true ∧ i ∈ ((cfg0.win 6).blk t).view.set := by
  have h0 : (i 0).val < 4096 := (i 0).isLt
  have h1 : (i 1).val < 64 := (i 1).isLt
  have h2 : (i 2).val < 64 := (i 2).isLt
  have hN : cfg0.N = 64 := N_0
  refine ⟨⟨(i 0).val / 64, by rw [hN]; omega⟩, flush0_6 _, ?_⟩
  rw [mem_block]
  obtain ⟨-, -, -, -, -, -, ⟨e0, e1, e2⟩⟩ := index_facts ⟨(i 0).val / 64, by rw [hN]; omega⟩
  intro b
  match b with
  | ⟨0, _⟩ => show win0_6.index _ (0 : Fin 3) * 64 ≤ (i 0).val ∧ (i 0).val < win0_6.index _ (0 : Fin 3) * 64 + 64; rw [e0]; show (i 0).val / 64 * 64 ≤ (i 0).val ∧ (i 0).val < (i 0).val / 64 * 64 + 64; omega
  | ⟨1, _⟩ => show win0_6.index _ (1 : Fin 3) * 64 ≤ (i 1).val ∧ (i 1).val < win0_6.index _ (1 : Fin 3) * 64 + 64; rw [e1]; omega
  | ⟨2, _⟩ => show win0_6.index _ (2 : Fin 3) * 64 ≤ (i 2).val ∧ (i 2).val < win0_6.index _ (2 : Fin 3) * 64 + 64; rw [e2]; omega

/-- THE ARRAY AFTER THE RUN is `whole`. -/
theorem final (c : Dev nD) : (dats m 0 c).arrAt 6 cfg0.N = whole m c :=
  (dats m 0 c).arrAt_eq_of_cover 6 (whole m c) (fun t _ => flushed_eq m c t) covered

/-- The kernel's run, read: the result array at `whole`, the arguments unchanged. -/
theorem run : θ_run defs (onTc (τ := τ) (main (F := Ideal))) ⟨m, fun _ => 0, ρ⟩ fun r => ∀ c : Dev nD,
      r.2.mem ((c : Thread nD τ).loc main_v8) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Whole

end
-- ==== Proof.RefValue.lean ====
/-
  The reference's result array is the specification's `result` of its arguments.

  The reference computes both halves at once: one product of the [4096, 2, 64, 128] features with each weight
  matrix (contracting the lane axis), the biases and the degree broadcast over the other axes, the clip at zero,
  then the two halves sliced apart, reshaped to [4096, 64, 128] and contracted over the lanes sample by sample.
  Reading the generated stage lemmas outermost first, entry (n, r, k) is `score` of sample n.
-/
import proofs.«120971_j9929964389089_1_alg».proof.Proof.Gen.ReferenceIdeal.Read
import proofs.«120971_j9929964389089_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.PairScore

variable (x0 : FVec Ideal S4096x2x64x128 .f32) (x1 : IVec S4096 32) (x2 : FVec Ideal S2x128x128 .f32)
  (x3 : FVec Ideal S2x128 .f32) (x4 : FVec Ideal S128x128 .f32) (x5 : FVec Ideal S128 .f32)

/-! ## Where each stage reads its operand, at an index given by coordinates -/

theorem lhs_rel (n : Fin 4096) (p : Fin 2) (r : Fin 64) (o d : Fin 128) : lidx_main_v2 (ix4 n p r o) d = ix4 n p r d :=
  funext fun a => Fin.ext (by match a with | ⟨0, _⟩ => rfl | ⟨1, _⟩ => rfl | ⟨2, _⟩ => rfl | ⟨3, _⟩ => rfl)
theorem rhs_rel (n : Fin 4096) (p : Fin 2) (r : Fin 64) (o d : Fin 128) : ridx_main_v2 (ix4 n p r o) d = ix2 d o :=
  funext fun a => Fin.ext (by match a with | ⟨0, _⟩ => rfl | ⟨1, _⟩ => rfl)
theorem lhs_self (n : Fin 4096) (p : Fin 2) (r : Fin 64) (o d : Fin 128) : lidx_main_v6 (ix4 n p r o) d = ix4 n p r d :=
  funext fun a => Fin.ext (by match a with | ⟨0, _⟩ => rfl | ⟨1, _⟩ => rfl | ⟨2, _⟩ => rfl | ⟨3, _⟩ => rfl)
theorem rhs_self (n : Fin 4096) (p : Fin 2) (r : Fin 64) (o d : Fin 128) : ridx_main_v6 (ix4 n p r o) d = ix2 d o :=
  funext fun a => Fin.ext (by match a with | ⟨0, _⟩ => rfl | ⟨1, _⟩ => rfl)
theorem bias_rel (n : Fin 4096) (p : Fin 2) (r : Fin 64) (o : Fin 128) : idx_main_v3 (idx_main_v4 (ix4 n p r o)) = ix1 o :=
  funext fun a => Fin.ext (by match a with | ⟨0, _⟩ => rfl)
theorem bias_self (n : Fin 4096) (p : Fin 2) (r : Fin 64) (o : Fin 128) : idx_main_v7 (idx_main_v8 (ix4 n p r o)) = ix1 o :=
  funext fun a => Fin.ext (by match a with | ⟨0, _⟩ => rfl)
theorem degree_at (n : Fin 4096) (p : Fin 2) (r : Fin 64) (o : Fin 128) : idx_main_v11 (idx_main_v12 (ix4 n p r o)) = ix1 n :=
  funext fun a => Fin.ext (by match a with | ⟨0, _⟩ => rfl)

/-- The clipped activations at (n, p, r, o): sample n's `hidden p r o`. -/
theorem hidden_apply (n : Fin 4096) (p : Fin 2) (r : Fin 64) (o : Fin 128) :
    val_main_v15 (F := Ideal) x0 x1 x2 x3 x4 x5 (ix4 n p r o)
      = hidden (fun p r d => x0 (ix4 n p r d)) (FloatOps.sitofp (F := Ideal) .f32 (x1 (ix1 n)))
          (fun d o => val_main_v0 (F := Ideal) x2 (ix2 d o)) (fun d o => x4 (ix2 d o))
          (fun o => val_main_v1 (F := Ideal) x3 (ix1 o)) (fun o => x5 (ix1 o)) p r o := by
  rw [val_main_v15_apply, val_main_v14_apply, val_main_v13_apply, val_main_v12_apply, val_main_v11_apply, val_main_v10_apply,
    val_main_v5_apply, val_main_v2_apply, val_main_v4_apply, val_main_v3_apply, val_main_v9_apply, val_main_v6_apply,
    val_main_v8_apply, val_main_v7_apply, val_main_call0_v0_apply, val_main_call0_cst_apply]
  simp only [lhs_rel, rhs_rel, lhs_self, rhs_self, bias_rel, bias_self, degree_at, Ideal.addf_def, Ideal.mulf_def,
    Ideal.maximumf_def, Ideal.ofBits_def, Ideal.ofBits_zero_f32]
  rfl

/-- Row r of sample n's first half, after the slice and the reshape. -/
theorem first_half (n : Fin 4096) (r : Fin 64) (o : Fin 128) : idx_main_v16 (idx_main_v17 (ix3 n r o)) = ix4 n (0 : Fin 2) r o := by
  have hn := n.isLt; have hr := r.isLt; have ho := o.isLt
  refine funext fun a => Fin.ext ?_
  match a with
  | ⟨0, _⟩ => show ((n.val * 64 + r.val) * 128 + o.val) / 8192 = n.val; omega
  | ⟨1, _⟩ => rfl
  | ⟨2, _⟩ => show ((n.val * 64 + r.val) * 128 + o.val) / 128 % 64 = r.val; omega
  | ⟨3, _⟩ => show ((n.val * 64 + r.val) * 128 + o.val) % 128 = o.val; omega
/-- Row k of sample n's second half. -/
theorem second_half (n : Fin 4096) (k : Fin 64) (o : Fin 128) : idx_main_v18 (idx_main_v19 (ix3 n k o)) = ix4 n (1 : Fin 2) k o := by
  have hn := n.isLt; have hk := k.isLt; have ho := o.isLt
  refine funext fun a => Fin.ext ?_
  match a with
  | ⟨0, _⟩ => show ((n.val * 64 + k.val) * 128 + o.val) / 8192 = n.val; omega
  | ⟨1, _⟩ => rfl
  | ⟨2, _⟩ => show ((n.val * 64 + k.val) * 128 + o.val) / 128 % 64 = k.val; omega
  | ⟨3, _⟩ => show ((n.val * 64 + k.val) * 128 + o.val) % 128 = o.val; omega
theorem lhs_pair (n : Fin 4096) (r k : Fin 64) (o : Fin 128) : lidx_main_v20 (ix3 n r k) o = ix3 n r o :=
  funext fun a => Fin.ext (by match a with | ⟨0, _⟩ => rfl | ⟨1, _⟩ => rfl | ⟨2, _⟩ => rfl)
theorem rhs_pair (n : Fin 4096) (r k : Fin 64) (o : Fin 128) : ridx_main_v20 (ix3 n r k) o = ix3 n k o :=
  funext fun a => Fin.ext (by match a with | ⟨0, _⟩ => rfl | ⟨1, _⟩ => rfl | ⟨2, _⟩ => rfl)

/-- THE REFERENCE'S RESULT is the specification's array of its arguments. -/
theorem result_eq :
    val_main_v20 (F := Ideal) x0 x1 x2 x3 x4 x5
      = result (fun n p r d => x0 (ix4 n p r d)) (fun n => FloatOps.sitofp (F := Ideal) .f32 (x1 (ix1 n)))
          (fun d o => val_main_v0 (F := Ideal) x2 (ix2 d o)) (fun d o => x4 (ix2 d o))
          (fun o => val_main_v1 (F := Ideal) x3 (ix1 o)) (fun o => x5 (ix1 o)) := by
  funext j
  obtain ⟨n, r, k, rfl⟩ : ∃ (n : Fin 4096) (r k : Fin 64), j = ix3 n r k := ⟨j 0, j 1, j 2, eq_ix3 j⟩
  rw [val_main_v20_apply, result_apply]
  unfold score
  refine Finset.sum_congr rfl fun o _ => ?_
  rw [lhs_pair, rhs_pair, val_main_v17_apply, val_main_v16_apply, first_half, val_main_v19_apply, val_main_v18_apply, second_half,
    hidden_apply, hidden_apply]

end Cert.ReferenceIdeal.RefValue

end
-- ==== Proof.lean ====
/-
  Equivalence, over the extended reals, of a fused pair-scoring kernel and its plain reference.

  For each of 4096 samples both programs take two 64 × 128 feature matrices and an integer degree g, send each
  matrix x through  max (g · (x · Ws + bs) + (x · W0 + b0)) 0  — Ws and bs the relation weights and biases summed
  over the two relations, W0 and b0 the self map's — and return the 64 × 64 matrix of inner products of the rows
  of the first image with the rows of the second. The kernel does this 64 samples per grid point, on flattened
  [4096, 128] matrices with bf16 operands; the reference does it on the whole [4096, 2, 64, 128] array at once.
  On extended reals a change of float format is the identity and a matrix product is its sum of products, so
  both programs build literally the same expression (`Cert.PairScore.result`, Proof/Spec.lean): no algebraic law
  and no finiteness is used, the precondition is never opened.

  Modules: Spec (the function), KernelBlock (what the body stores for one point, at an index), KernelValue (the
  staged blocks read back through their windows, the cover, the kernel's run), RefValue (the reference's stages
  read at an index). The three frames are the generated ones (the reference's is its generated run with the
  result dropped); the idealization rewrote nothing, so `preserves` is `True`.
-/
import proofs.«120971_j9929964389089_1_alg».proof.Defs
import proofs.«120971_j9929964389089_1_alg».proof.Proof.Gen.Kernel
import proofs.«120971_j9929964389089_1_alg».proof.Proof.Gen.Kernel.Skeleton
import proofs.«120971_j9929964389089_1_alg».proof.Proof.Gen.Kernel.Launch
import proofs.«120971_j9929964389089_1_alg».proof.Proof.Gen.Kernel.Points
import proofs.«120971_j9929964389089_1_alg».proof.Proof.Gen.Kernel.Frame
import proofs.«120971_j9929964389089_1_alg».proof.Proof.Gen.KernelIdeal
import proofs.«120971_j9929964389089_1_alg».proof.Proof.Gen.KernelIdeal.Skeleton
import proofs.«120971_j9929964389089_1_alg».proof.Proof.Gen.KernelIdeal.Launch
import proofs.«120971_j9929964389089_1_alg».proof.Proof.Gen.KernelIdeal.Points
import proofs.«120971_j9929964389089_1_alg».proof.Proof.Gen.KernelIdeal.Frame
import proofs.«120971_j9929964389089_1_alg».proof.Proof.Gen.ReferenceIdeal
import proofs.«120971_j9929964389089_1_alg».proof.Proof.Gen.KernelIdeal.Value
import proofs.«120971_j9929964389089_1_alg».proof.Proof.Gen.ReferenceIdeal.Run
import proofs.«120971_j9929964389089_1_alg».proof.Proof.Gen.ReferenceIdeal.Read
import proofs.«120971_j9929964389089_1_alg».proof.Proof.Gen.Pre_finite_inputs
import proofs.«120971_j9929964389089_1_alg».proof.Proof.KernelValue
import proofs.«120971_j9929964389089_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the specification's `result` of the (agreeing) arguments. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq]
  obtain ⟨a0, a1, a2, a3, a4, a5⟩ := hagree c
  rw [a0, a1, a2, a3, a4, a5]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
